-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S4096x4096 .f32) (main_arg2 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S512x2048 : Shape := ⟨2, ![512, 2048]⟩
abbrev S1x512 : Shape := ⟨2, ![1, 512]⟩
abbrev S512x512 : Shape := ⟨2, ![512, 512]⟩
abbrev S2048x512 : Shape := ⟨2, ![2048, 512]⟩

abbrev nBuf : Space → Nat
  | .hbm => 34
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S2x2048x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S2x2048x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  reducesTo_S2x2048x4096_S_d0_1_2 : S2x2048x4096.ReducesTo [0, 1, 2] S_
  bcast_S_S4096 : S_.BroadcastsInDim S4096 (![] : Fin 0 → Fin S4096.rank)
  shapeCasts_S4096_S1x4096 : S4096.ShapeCasts S1x4096
  shapeCasts_S2x2048x4096_S4096x4096 : S2x2048x4096.ShapeCasts S4096x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S4096x4096_S2x2048x4096 : S4096x4096.ShapeCasts S2x2048x4096
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v21) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S4096x4096, .f32⟩
  | .hbm, ⟨18, _⟩ => ⟨S4096x4096, .f32⟩
  | .hbm, ⟨19, _⟩ => ⟨S2x2048x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x2048x4096, .f32⟩
  | .hbm, ⟨27, _⟩ => ⟨S2x2048x4096, .f32⟩
  | .hbm, ⟨28, _⟩ => ⟨S4096x4096, .f32⟩
  | .hbm, ⟨29, _⟩ => ⟨S4096x4096, .f32⟩
  | .hbm, ⟨30, _⟩ => ⟨S2x2048x4096, .f32⟩
  | .hbm, ⟨31, _⟩ => ⟨S1x1x4096, .f32⟩
  | .hbm, ⟨32, _⟩ => ⟨S2x2048x4096, .f32⟩
  | .hbm, ⟨33, _⟩ => ⟨S2x2048x4096, .f32⟩
  | .hbm, ⟨34, _⟩ => ⟨S2x2048x4096, .f32⟩
  | .hbm, ⟨35, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  reducesTo_S2x2048x4096_S_d0_1_2 : S2x2048x4096.ReducesTo [0, 1, 2] S_
  bcast_S_S2x2048x4096 : S_.BroadcastsInDim S2x2048x4096 (![] : Fin 0 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  The mathematics both programs share, stated once over the extended reals and free of either program.

  The layer is a linear map with a ternary weight.  From the weight matrix `w` one forms the clamped mean of
  absolute values `c = max (mean |w|) ε`, the ternary matrix `q = sign (w / c) · [|w / c| > 1/2]` and the
  dequantized weight `d = q · c`; from the activations `x` the clamped mean `s = max (mean |x|) ε`.
  One program computes `((x / s) · dᵀ + bias) · s`, the other `x · dᵀ + bias · s` with the contraction
  split into two halves of 2048 that are added one after the other onto a zero.  Both are stated here at one
  entry `(p, q, o)`; `Algebra.lean` proves them equal whenever `s` is a positive real.
-/
import Idealize.ShloMosaic.PureOps
import Idealize.ShloMosaic.PureOps.Ideal
import Idealize.ShloMosaic.Lib.ValueIdx

noncomputable section

namespace Cert.TernaryLinear

open Idealize.ShloMosaic Idealize.ShloMosaic.ValueIdx
open scoped BigOperators

/-- Activations: batch 2, sequence 2048, 4096 input features. -/
abbrev SX : Shape := ⟨3, ![2, 2048, 4096]⟩
/-- Weight: 4096 output features by 4096 input features. -/
abbrev SW : Shape := ⟨2, ![4096, 4096]⟩
/-- Bias: one entry per output feature. -/
abbrev SB : Shape := ⟨1, ![4096]⟩
/-- A scalar. -/
abbrev S0 : Shape := ⟨0, ![]⟩

theorem redW : SW.ReducesTo [0, 1] S0 := by decide
theorem redX : SX.ReducesTo [0, 1, 2] S0 := by decide
theorem pos0 : 0 < S0.numel := by decide
theorem bcW : S0.BroadcastsInDim SW (![] : Fin 0 → Fin SW.rank) := by decide

section Host
variable {F : FTy → Type} [FloatOps F]

/-- `max (sum |a| / 2^24) ε`: the mean of absolute values of an array of 2^24 entries, clamped below by the
    small constant `ε` (the word `0x322BCC77`), as the host computes it. -/
def absMean {S : Shape} {axes : List (Fin S.rank)} (h : S.ReducesTo axes S0) (a : FVec F S .f32) : FVec F S0 .f32 :=
  maximumf (Host.divf (Host.reduceAdd (Host.absf a) (constant S0 .f32 0x00000000#32) h pos0) (constant S0 .f32 0x4B800000#32))
    (constant S0 .f32 0x322BCC77#32)

/-- The dequantized ternary weight `sign (w / c) · [|w / c| > 1/2] · c` with `c = absMean w`, as the host computes it. -/
def deq (w : FVec F SW .f32) : FVec F SW .f32 :=
  mulf (mulf (Host.sign (Host.divf w (broadcastInDim SW ![] bcW (absMean redW w))))
      (uitofp .f32 (cmpf .ogt (Host.absf (Host.divf w (broadcastInDim SW ![] bcW (absMean redW w))))
        (broadcastInDim SW ![] bcW (constant S0 .f32 0x3F000000#32)))))
    (broadcastInDim SW ![] bcW (absMean redW w))

end Host

/-- Input feature `k` of the first half. -/
abbrev lo (k : Fin 2048) : Fin 4096 := ⟨k.val, by omega⟩
/-- Input feature `2048 + k` of the second half. -/
abbrev hi (k : Fin 2048) : Fin 4096 := ⟨2048 + k.val, by omega⟩

/-- Entry `(p, q, o)` as the tiled program leaves it: zero, plus the first half of the contraction, plus the second
    half, plus the bias already multiplied by the activation scale. -/
def tiledAt (x : SX.Idx → EReal) (d : SW.Idx → EReal) (b : SB.Idx → EReal) (s : EReal)
    (p : Fin 2) (q : Fin 2048) (o : Fin 4096) : EReal :=
  ((0 + ∑ k : Fin 2048, x (ix3 p q (lo k)) * d (ix2 o (lo k))) + ∑ k : Fin 2048, x (ix3 p q (hi k)) * d (ix2 o (hi k)))
    + b (ix1 o) * s

/-- Entry `(p, q, o)` as the plain program leaves it: the activations divided by the scale, contracted with the weight
    over all 4096 input features, plus the bias, the whole multiplied by the scale. -/
def plainAt (x : SX.Idx → EReal) (d : SW.Idx → EReal) (b : SB.Idx → EReal) (s : EReal)
    (p : Fin 2) (q : Fin 2048) (o : Fin 4096) : EReal :=
  ((∑ i : Fin 4096, Ideal.div (x (ix3 p q i)) s * d (ix2 o i)) + b (ix1 o)) * s

/-- The tiled result as an array. -/
def tiled (x : SX.Idx → EReal) (d : SW.Idx → EReal) (b : SB.Idx → EReal) (s : EReal) : SX.Idx → EReal :=
  fun i => tiledAt x d b s (i 0) (i 1) (i 2)

theorem tiled_apply (x : SX.Idx → EReal) (d : SW.Idx → EReal) (b : SB.Idx → EReal) (s : EReal)
    (p : Fin 2) (q : Fin 2048) (o : Fin 4096) : tiled x d b s (ix3 p q o) = tiledAt x d b s p q o := rfl

end Cert.TernaryLinear

end
-- ==== Proof.Algebra.lean ====
/-
  The two ways of computing one entry of the ternary linear layer agree over the extended reals whenever the
  activation scale is a positive real.

  The argument: for a positive real `r`, multiplication by `(r : EReal)` distributes over addition on all of the
  extended reals (no finiteness of the summands is needed), hence over finite sums; division by `r` is
  multiplication by the real `1 / r`; and `(1 / r) * r = 1`.  So
  `((∑ i, (x i / r) * d i) + b) * r = (∑ i, x i * d i) + b * r`, and the sum over the 4096 input features is the
  sum over the first 2048 plus the sum over the last 2048.
-/
import proofs.«135327_j89489938580129_1_alg».proof.Proof.Spec
import Mathlib.Data.EReal.Operations
import Mathlib.Algebra.BigOperators.Fin

noncomputable section

namespace Cert.TernaryLinear

open Idealize.ShloMosaic Idealize.ShloMosaic.ValueIdx
open scoped BigOperators

/-- Multiplication on the right by a nonnegative finite extended real distributes over a finite sum of
    arbitrary extended reals. -/
theorem sum_mul_of_nonneg_of_ne_top {ι : Type*} (t : Finset ι) (f : ι → EReal) {c : EReal}
    (h0 : 0 ≤ c) (ht : c ≠ ⊤) : (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 ht, ih]

/-- Dividing by a positive real, multiplying by anything, then multiplying by that real again gives back the
    plain product: `(a / r) * e * r = a * e`. -/
theorem div_mul_mul_cancel {r : ℝ} (hr : 0 < r) (a e : EReal) :
    Ideal.div a (r : EReal) * e * (r : EReal) = a * e := by
  have hone : ((1 / r : ℝ) : EReal) * (r : EReal) = 1 := by
    rw [← EReal.coe_mul, one_div, inv_mul_cancel₀ hr.ne', EReal.coe_one]
  rw [Ideal.div_coe hr.ne', mul_assoc, mul_assoc, mul_comm e, ← mul_assoc ((1 / r : ℝ) : EReal), hone, one_mul]

/-- A sum over the 4096 input features is the sum over the first half plus the sum over the second half. -/
theorem sum_halves (f : Fin 4096 → EReal) :
    ∑ i : Fin 4096, f i = (∑ k : Fin 2048, f (lo k)) + ∑ k : Fin 2048, f (hi k) :=
  Fin.sum_univ_add (a := 2048) (b := 2048) f

theorem plainAt_eq_tiledAt (x : SX.Idx → EReal) (d : SW.Idx → EReal) (b : SB.Idx → EReal) (s : EReal)
    (hs : ∃ r : ℝ, 0 < r ∧ s = (r : EReal)) (p : Fin 2) (q : Fin 2048) (o : Fin 4096) :
    plainAt x d b s p q o = tiledAt x d b s p q o := by
  obtain ⟨r, hr, rfl⟩ := hs
  have h0 : (0 : EReal) ≤ (r : EReal) := by exact_mod_cast hr.le
  have ht : (r : EReal) ≠ ⊤ := EReal.coe_ne_top r
  unfold plainAt tiledAt
  rw [EReal.right_distrib_of_nonneg_of_ne_top h0 ht, sum_mul_of_nonneg_of_ne_top _ _ h0 ht, zero_add]
  congr 1
  rw [sum_halves]
  simp only [div_mul_mul_cancel hr]

end Cert.TernaryLinear

end
-- ==== Proof.Finite.lean ====
/-
  From the precondition (every input entry finite) to the one fact the algebra needs: the activation scale
  `max (mean |x|) ε` is a positive real.
-/
import proofs.«135327_j89489938580129_1_alg».proof.Proof.Spec
import proofs.«135327_j89489938580129_1_alg».proof.Pre_finite_inputs
import Idealize.ShloMosaic.Lib.ReduceAll
import Idealize.ShloMosaic.PureOps.Ideal.Laws

noncomputable section

namespace Cert.TernaryLinear

open Idealize.ShloMosaic Idealize.ShloMosaic.ValueIdx
open scoped BigOperators

/-! ## The three constant words -/

/-- The word `0x7F800000` is `+∞`. -/
theorem ofBits_inf : Ideal.ofBits .f32 0x7F800000#32 = (⊤ : EReal) := by
  simp [Ideal.ofBits, Ideal.ieee]

/-- The divisor word `0x4B800000` is the real `2^24`, the number of entries of the activations. -/
theorem ofBits_count : Ideal.ofBits .f32 0x4B800000#32 = ((16777216 : ℝ) : EReal) := by
  simp [Ideal.ofBits, Ideal.ieee]
  exact_mod_cast (by norm_num : (8388608 : ℝ) * 2 = 16777216)

/-- The clamp word `0x322BCC77` is the positive real `11258999 / 2^50`. -/
theorem ofBits_eps : ∃ e : ℝ, 0 < e ∧ Ideal.ofBits .f32 0x322BCC77#32 = (e : EReal) := by
  refine ⟨(11258999 : ℝ) * ((2 : ℝ) ^ 50)⁻¹, by positivity, ?_⟩
  simp [Ideal.ofBits, Ideal.ieee]

/-! ## Every entry of the activations is a real -/

/-- A comparison `a < b` of extended reals that came out as the word 1 holds. -/
theorem lt_of_cmp_olt {a b : EReal} (h : Ideal.cmp .olt a b = 1#1) : a < b := by
  by_contra hn
  simp [Ideal.cmp, hn] at h

/-- An extended real whose absolute value `max a (-a)` lies below `+∞` is a real. -/
theorem real_of_abs_lt_top (a : EReal) (h : max a (-a) < ⊤) : ∃ r : ℝ, a = (r : EReal) := by
  induction a using EReal.rec with
  | bot => simp at h
  | top => simp at h
  | coe r => exact ⟨r, rfl⟩

instance : Subsingleton Cert.Pre_finite_inputs.S_.Idx := ⟨fun a b => funext fun d => d.elim0⟩

/-- Under the precondition every entry of `x` is a real: the first conjunct says `|x i| < +∞` at every index. -/
theorem x_real_of_pre [Cert.Pre_finite_inputs.Facts] (x : FVec Ideal SX .f32) (w : FVec Ideal SW .f32) (b : FVec Ideal SB .f32)
    (h : Cert.Pre_finite_inputs.fn (F := Ideal) x w b = fun _ => 1#1) (i : SX.Idx) : ∃ r : ℝ, x i = (r : EReal) := by
  have h0 := congrFun h ValueIdx.ix0
  dsimp only [Cert.Pre_finite_inputs.fn] at h0
  have h1 := (IntOp.andi_eq_one.1 h0).1
  have h2 := (IntOp.andi_eq_one.1 h1).1
  have h3 := Host.reduce_andi_all _ _ _ _ _ h2 i
  have h4 : Ideal.cmp .olt (max (x i) (-(x i))) (Ideal.ofBits .f32 0x7F800000#32) = 1#1 := h3
  rw [ofBits_inf] at h4
  exact real_of_abs_lt_top (x i) (lt_of_cmp_olt h4)

/-! ## The clamped mean is a positive real -/

/-- A finite sum of reals, taken in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, taken in the extended reals, is the larger real. -/
theorem max_coe (a b : ℝ) : max (a : EReal) (b : EReal) = ((max a b : ℝ) : EReal) :=
  (EReal.coe_strictMono.monotone.map_max).symm

/-- The host's sum of `|x|` over every index, from the zero word: `0 + ∑ i, max (x i) (-(x i))`. -/
theorem sumAbs_read (x : FVec Ideal SX .f32) :
    Host.reduceAdd (Host.absf x) (constant S0 .f32 0x00000000#32) redX pos0 ix0
      = 0 + ∑ i : SX.Idx, max (x i) (-(x i)) := by
  simp only [Host.reduceAdd, Ideal.hostReduceAdd_def]
  rw [Ideal.hostReduceAdd_total redX (fun b => b.elim0)]
  show Ideal.ofBits .f32 0x00000000#32 + ∑ i : SX.Idx, max (x i) (-(x i)) = _
  rw [Ideal.ofBits_zero_f32]

theorem absMean_pos_of_pre [Cert.Pre_finite_inputs.Facts] (x : FVec Ideal SX .f32) (w : FVec Ideal SW .f32) (b : FVec Ideal SB .f32)
    (h : Cert.Pre_finite_inputs.fn (F := Ideal) x w b = fun _ => 1#1) :
    ∃ r : ℝ, 0 < r ∧ absMean (F := Ideal) redX x ix0 = (r : EReal) := by
  -- every entry of `x` is a real `r i`, so `|x i|` is the real `max (r i) (-(r i))`
  choose r hr using x_real_of_pre x w b h
  obtain ⟨e, he, hε⟩ := ofBits_eps
  have habs : ∀ i : SX.Idx, max (x i) (-(x i)) = ((max (r i) (-(r i)) : ℝ) : EReal) := fun i => by
    rw [hr i, ← EReal.coe_neg, max_coe]
  -- the scale at its one index: `max ((0 + ∑ |x i|) / 2^24) ε`
  have hread : absMean (F := Ideal) redX x ix0
      = max (Ideal.div (Host.reduceAdd (Host.absf x) (constant S0 .f32 0x00000000#32) redX pos0 ix0)
          (Ideal.ofBits .f32 0x4B800000#32)) (Ideal.ofBits .f32 0x322BCC77#32) := rfl
  refine ⟨max ((∑ i : SX.Idx, max (r i) (-(r i))) * (1 / 16777216)) e, lt_max_of_lt_right he, ?_⟩
  rw [hread, sumAbs_read, zero_add, Finset.sum_congr rfl (fun i _ => habs i), sum_coe, ofBits_count, hε,
    Ideal.div_coe (by norm_num), ← EReal.coe_mul, max_coe]

end Cert.TernaryLinear

end
-- ==== Proof.RefSide.lean ====
/-
  The reference program's result, read at one entry, is the plain form of the ternary linear layer.

  The reference divides the activations by their clamped mean of absolute values `s`, contracts them with the
  dequantized ternary weight over all 4096 input features, adds the bias and multiplies by `s` again.  Its weight
  chain and its scale chain are, operation for operation, the shared definitions `deq` and `absMean`; the
  contraction reads the activations at `(p, q, k)` and the weight at `(o, k)`, and the two broadcasts of the bias
  read it at `o`.
-/
import proofs.«135327_j89489938580129_1_alg».proof.Proof.Spec
import proofs.«135327_j89489938580129_1_alg».proof.Proof.Gen.ReferenceIdeal.Read

noncomputable section

namespace Cert.TernaryLinear

open Idealize.ShloMosaic Idealize.ShloMosaic.ValueIdx
open scoped BigOperators

/-- The reference's weight chain is the dequantized ternary weight: the same operations in the same order. -/
theorem ref_weight (w : FVec Ideal SW .f32) :
    Cert.ReferenceIdeal.Read.val_main_v19 (F := Ideal) w = deq (F := Ideal) w := rfl

/-- The reference's activation scale is the clamped mean of absolute values. -/
theorem ref_scale (x : FVec Ideal SX .f32) :
    Cert.ReferenceIdeal.Read.val_main_v15 (F := Ideal) x = absMean (F := Ideal) redX x := rfl

/-- The contraction reads the activations of entry `(p, q, o)` at `(p, q, k)`. -/
theorem ref_lidx (p : Fin 2) (q : Fin 2048) (o k : Fin 4096) :
    Cert.ReferenceIdeal.Read.lidx_main_v20 (ix3 p q o) k = ix3 p q k :=
  funext fun a => Fin.ext (by match a with | ⟨0, _⟩ => rfl | ⟨1, _⟩ => rfl | ⟨2, _⟩ => rfl)

/-- The contraction reads the weight of entry `(p, q, o)` at `(o, k)`. -/
theorem ref_ridx (p : Fin 2) (q : Fin 2048) (o k : Fin 4096) :
    Cert.ReferenceIdeal.Read.ridx_main_v20 (ix3 p q o) k = ix2 o k :=
  funext fun a => Fin.ext (by match a with | ⟨0, _⟩ => rfl | ⟨1, _⟩ => rfl)

/-- The two broadcasts of the bias read it, at entry `(p, q, o)`, at `o`. -/
theorem ref_bidx (p : Fin 2) (q : Fin 2048) (o : Fin 4096) :
    Cert.ReferenceIdeal.Read.idx_main_v21 (Cert.ReferenceIdeal.Read.idx_main_v22 (ix3 p q o)) = ix1 o :=
  funext fun a => Fin.ext (by match a with | ⟨0, _⟩ => rfl)

theorem ref_apply (x : FVec Ideal SX .f32) (w : FVec Ideal SW .f32) (b : FVec Ideal SB .f32)
    (p : Fin 2) (q : Fin 2048) (o : Fin 4096) :
    Cert.ReferenceIdeal.Read.val_main_v25 (F := Ideal) x w b (ix3 p q o)
      = plainAt x (deq (F := Ideal) w) b (absMean (F := Ideal) redX x ix0) p q o := by
  rw [Cert.ReferenceIdeal.Read.val_main_v25_apply, Cert.ReferenceIdeal.Read.val_main_v23_apply,
    Cert.ReferenceIdeal.Read.val_main_v20_apply, Cert.ReferenceIdeal.Read.val_main_v22_apply,
    Cert.ReferenceIdeal.Read.val_main_v21_apply, Cert.ReferenceIdeal.Read.val_main_v24_apply, ref_bidx]
  -- inside the sum: the activations divided by the scale, at `(p, q, k)`, times the weight at `(o, k)`
  have hsum : (∑ k : Fin 4096,
        Cert.ReferenceIdeal.Read.val_main_v17 (F := Ideal) x (Cert.ReferenceIdeal.Read.lidx_main_v20 (ix3 p q o) k)
          * Cert.ReferenceIdeal.Read.val_main_v19 (F := Ideal) w (Cert.ReferenceIdeal.Read.ridx_main_v20 (ix3 p q o) k))
      = ∑ k : Fin 4096, Ideal.div (x (ix3 p q k)) (absMean (F := Ideal) redX x ix0) * deq (F := Ideal) w (ix2 o k) := by
    refine Finset.sum_congr rfl fun k _ => ?_
    rw [ref_lidx, ref_ridx, Cert.ReferenceIdeal.Read.val_main_v17_apply, Cert.ReferenceIdeal.Read.val_main_v16_apply,
      ref_weight, ref_scale, Ideal.hostDivf_def]
  rw [hsum, ref_scale, Ideal.mulf_def, Ideal.addf_def]
  unfold plainAt
  rfl

end Cert.TernaryLinear

end
-- ==== Proof.KPieces.lean ====
/-
  What one run of the kernel body leaves behind, as values.  The body keeps a 512x512 accumulator in scratch.  At a
  point whose contraction coordinate is 0 it stores zero there and then adds the product of the two operand blocks;
  at a point whose contraction coordinate is 1 it adds the product onto what the point before left and then stores
  the accumulator plus the bias row, repeated down the rows, into the output block.
-/
import proofs.«135327_j89489938580129_1_alg».proof.Proof.Gen.KernelIdeal.Frame
import Idealize.ShloMosaic.Lib.Pipeline.Value
import Idealize.ShloMosaic.Lib.Tactic

noncomputable section

namespace Cert.KernelIdeal.KVal

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At a point of the first kind the accumulator ends at the zero block plus the product of the two operand blocks:
    the zero just stored is what the accumulating step reads back. -/
theorem acc_first (c : Dev nD) (i : grid0.Coords) (a3 : Memref sig .tc .vmem S512x2048 .f32) (h3 : a3.IsWhole)
    (a4 : Memref sig .tc .vmem S512x2048 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : cond0_0 i) (hc1 : ¬cond0_1 i) (x0 : Vec F S512x2048 .f32) (x1 : Vec F S512x2048 .f32) (x2 : Vec F S1x512 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x2048) hz]

/-- At a point of the second kind the accumulator ends at what the point before left plus the product of the two
    operand blocks. -/
theorem acc_second (c : Dev nD) (i : grid0.Coords) (a3 : Memref sig .tc .vmem S512x2048 .f32) (h3 : a3.IsWhole)
    (a4 : Memref sig .tc .vmem S512x2048 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 : Vec F S512x2048 .f32) (x1 : Vec F S512x2048 .f32) (x2 : Vec F S1x512 .f32)
    (acc : Vec F S512x512 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h7.read_unread, View.ld_unit_zero (S := S512x2048) hz,
    View.ld_unit_zero (S := S512x512) hz]

/-- At a point of the second kind the output block ends at the new accumulator plus the bias row repeated down the rows. -/
theorem out_second (c : Dev nD) (i : grid0.Coords) (a3 : Memref sig .tc .vmem S512x2048 .f32) (h3 : a3.IsWhole)
    (a4 : Memref sig .tc .vmem S512x2048 .f32) (h4 : a4.IsWhole) (a5 : Memref sig .tc .vmem S1x512 .f32) (h5 : a5.IsWhole)
    (a6 : Memref sig .tc .vmem S512x512 .f32) (h6 : a6.IsWhole) (a7 : Memref sig .tc .vmem S512x512 .f32) (h7 : a7.IsWhole)
    (hc0 : ¬cond0_0 i) (hc1 : cond0_1 i) (x0 : Vec F S512x2048 .f32) (x1 : Vec F S512x2048 .f32) (x2 : Vec F S1x512 .f32)
    (acc : Vec F S512x512 .f32) :
    out0_B_3 c i a3 h3 a4 h4 a5 h5 a6 h6 a7 h7 hc0 hc1 x0 x1 x2 acc = k0_pay3 (k0_pay2 x0 x1 acc) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero hz]
  simp only [View.readCov_unit_zero (S := S512x512) _ hz, View.readAt_eq_ld, h3.read_unread, h4.read_unread, h5.read_unread,
    h7.read_unread, View.ld_unit_zero (S := S512x2048) hz, View.ld_unit_zero (S := S512x512) hz,
    View.ld_unit_zero (S := S1x512) hz]

end Cert.KernelIdeal.KVal

end
-- ==== Proof.KPay.lean ====
/-
  The three values the kernel body stores, read at one entry over the extended reals: the zero block; the accumulator
  plus the product of a 512x2048 block with the transpose of another, `acc[p,q] + ∑ₖ a[p,k] · b[q,k]`; and the
  accumulator plus a bias row repeated down the rows, `acc[p,q] + r[0,q]`.  A change of float format is the identity
  over the extended reals, so the narrowing of both operands before the product does not show.
-/
import proofs.«135327_j89489938580129_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Idealize.ShloMosaic Idealize.ShloMosaic.ValueIdx
open Cert.KernelIdeal Cert.KernelIdeal.Gen
open scoped BigOperators

/-- The block the reset stores is zero everywhere. -/
theorem zero_apply (p q : Fin 512) : k0_pay1 (F := Ideal) (ix2 p q) = 0 := by
  unfold k0_pay1
  rw [shapeCast_self]
  exact Ideal.ofBits_zero_f32

theorem lhs_mm_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_mm_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_mm_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_mm_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product into a zero accumulator, at `(p, q)`: the sum over the 2048 shared coordinates of the left operand's
    row `p` against the right operand's column `q`. -/
theorem mm_apply (l : FVec Ideal S512x2048 .bf16) (r : FVec Ideal S2048x512 .bf16) (p q : Fin 512) :
    matmul dot_S512x2048_S2048x512_S512x512_1_0_0_1_n_n none l r (constant S512x512 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p q) ((ValueIdx.contrEquiv1 dot_S512x2048_S2048x512_S512x512_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S512x2048_S2048x512_S512x512_1_0_0_1_n_n.rhsIdx (ix2 p q) ((ValueIdx.contrEquiv1 dot_S512x2048_S2048x512_S512x512_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-- The accumulating step at `(p, q)`. -/
theorem acc_apply (a b : FVec Ideal S512x2048 .f32) (acc : FVec Ideal S512x512 .f32) (p q : Fin 512) :
    k0_pay2 (F := Ideal) a b acc (ix2 p q) = acc (ix2 p q) + ∑ k : Fin 2048, a (ix2 p k) * b (ix2 q k) := by
  unfold k0_pay2
  rw [shapeCast_self, shapeCast_self, shapeCast_self]
  rw [addf_apply, mm_apply]
  refine congrArg (acc (ix2 p q) + ·) (Finset.sum_congr rfl fun k _ => ?_)
  rw [transpose_ix2_apply]
  rfl

/-- The closing step at `(p, q)`: the accumulator there plus the bias row at column `q`. -/
theorem out_apply (acc : FVec Ideal S512x512 .f32) (r : FVec Ideal S1x512 .f32) (p q : Fin 512) :
    k0_pay3 (F := Ideal) acc r (ix2 p q) = acc (ix2 p q) + r (ix2 (0 : Fin 1) q) := by
  unfold k0_pay3
  rw [shapeCast_self, addf_apply, broadcastTo_1b_ab_apply]

end Cert.KernelIdeal.KVal

end
-- ==== Proof.KBlocks.lean ====
/-
  From the per-point values to the whole result matrix of the tiled product.  The grid has 8 x 8 x 2 points; point
  `t` has row-block `t / 16`, column-block `t / 2 % 8` and contraction half `t % 2`.  The accumulator is reset at
  the even points and written out at the odd ones, so what an odd point `t` writes back is, at `(p, q)` of its block,
  `((0 + ∑ₖ X[r, k] · D[o, k]) + ∑ₖ X[r, 2048 + k] · D[o, 2048 + k]) + B[0, o]` with `r = 512 · (t / 16) + p`,
  `o = 512 · (t / 2 % 8) + q`: the first sum is what the even point before it left.  These blocks tile the matrix.
-/
import proofs.«135327_j89489938580129_1_alg».proof.Proof.Spec
import proofs.«135327_j89489938580129_1_alg».proof.Proof.KPieces
import proofs.«135327_j89489938580129_1_alg».proof.Proof.KPay

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen
open Cert.TernaryLinear (lo hi)
open scoped BigOperators

variable (m : (ℓ : Loc nD τ sig) → Buf (Elt Ideal) ℓ)

/-- The activation block, the weight block and the bias block the body sees at point `t`. -/
abbrev xblk (c : Dev nD) (t : Fin cfg0.N) : Vec Ideal S512x2048 .f32 := iblk m c 0 t
abbrev wblk (c : Dev nD) (t : Fin cfg0.N) : Vec Ideal S512x2048 .f32 := iblk m c 1 t
abbrev bblk (c : Dev nD) (t : Fin cfg0.N) : Vec Ideal S1x512 .f32 := iblk m c 2 t
/-- The three matrices the region is entered with: flattened activations, dequantized weight, rescaled bias row. -/
abbrev xarr (c : Dev nD) : Vec Ideal S4096x4096 .f32 := V m c main_v21
abbrev warr (c : Dev nD) : Vec Ideal S4096x4096 .f32 := V m c main_v13
abbrev barr (c : Dev nD) : Vec Ideal S1x4096 .f32 := V m c main_v20

/-- The point before `t`. -/
abbrev prev (t : Fin cfg0.N) : Fin cfg0.N := ⟨t.val - 1, Nat.lt_of_le_of_lt (Nat.sub_le _ _) t.isLt⟩

/-- After an even point the accumulator holds zero plus that point's product. -/
theorem acc_even (c : Dev nD) (t : Fin cfg0.N) (h : t.val % 2 = 0) :
    (outsAt0 m c t.val t.isLt).2 = k0_pay2 (xblk m c t) (wblk m c t) (k0_pay1 (F := Ideal)) := by
  have h1 : ¬t.val % 2 = 1 := by omega
  rw [outsAt0_A m c t h h1]
  dsimp only
  exact acc_first (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h) (fun hh => h1 ((hcond0_1 t).mp hh)) (iblk m c 0 t) (iblk m c 1 t) (iblk m c 2 t)

/-- After an odd point the output block holds the two products added onto zero in turn, plus the bias row. -/
theorem out_odd (c : Dev nD) (t : Fin cfg0.N) (h : t.val % 2 = 1) :
    (outsAt0 m c t.val t.isLt).1
      = k0_pay3 (k0_pay2 (xblk m c t) (wblk m c t) (k0_pay2 (xblk m c (prev t)) (wblk m c (prev t)) (k0_pay1 (F := Ideal)))) (bblk m c t) := by
  have h0 : ¬t.val % 2 = 0 := by omega
  rw [outsAt0_B m c t h0 h]
  dsimp only
  refine (out_second (F := Ideal) c (grid0.coords t) (ms0_0 t) (hs0_0 t) (ms0_1 t) (hs0_1 t) (ms0_2 t) (hs0_2 t) (ms0_3 t) (hs0_3 t)
    scM0_0 (Memref.isWhole_whole _) (fun hh => h0 ((hcond0_0 t).mp hh)) ((hcond0_1 t).mpr h) (iblk m c 0 t) (iblk m c 1 t) (iblk m c 2 t)
    ((outsAt0 m c (t.val - 1) (Nat.lt_of_le_of_lt (Nat.sub_le _ _) t.isLt)).2)).trans ?_
  exact congrArg (fun a => k0_pay3 (k0_pay2 (xblk m c t) (wblk m c t) a) (bblk m c t))
    (acc_even m c (prev t) (by show (t.val - 1) % 2 = 0; omega))

/-- The same at an entry `(p, q)` of the block. -/
theorem out_odd_apply (c : Dev nD) (t : Fin cfg0.N) (h : t.val % 2 = 1) (p q : Fin 512) :
    (outsAt0 m c t.val t.isLt).1 (ix2 p q)
      = ((0 + ∑ k : Fin 2048, xblk m c (prev t) (ix2 p k) * wblk m c (prev t) (ix2 q k))
          + ∑ k : Fin 2048, xblk m c t (ix2 p k) * wblk m c t (ix2 q k)) + bblk m c t (ix2 (0 : Fin 1) q) := by
  rw [out_odd m c t h, out_apply, acc_apply, acc_apply, zero_apply]

/-- Where each window's block sits at point `t`: decided once over the 128 points. -/
theorem idx_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = 0 ∧ win0_2.index t (1 : Fin 2) = t.val / 2 % 8
    ∧ win0_3.index t (0 : Fin 2) = t.val / 16 ∧ win0_3.index t (1 : Fin 2) = t.val / 2 % 8 :=
  (by decide +kernel : ∀ t : Fin grid0.N, _)

/-- The activation block at `(p, k)` is the flattened activations at row `512 · (t / 16) + p`, column `2048 · (t % 2) + k`. -/
theorem xblk_apply (c : Dev nD) (t : Fin cfg0.N) (p : Fin 512) (k : Fin 2048) (r kk : Fin 4096)
    (hr : r.val = t.val / 16 * 512 + p.val) (hk : kk.val = t.val % 2 * 2048 + k.val) :
    xblk m c t (ix2 p k) = xarr m c (ix2 r kk) := by
  obtain ⟨e0, e1, -⟩ := idx_facts t
  show iblk m c 0 t (ix2 p k) = V m c main_v21 (ix2 r kk)
  unfold iblk
  rw [View.read_apply]
  show V m c main_v21 _ = V m c main_v21 _
  congr 1
  funext a
  apply Fin.ext
  match a with
  | ⟨0, _⟩ => show win0_0.index t (0 : Fin 2) * 512 + 1 * p.val = r.val; rw [e0]; omega
  | ⟨1, _⟩ => show win0_0.index t (1 : Fin 2) * 2048 + 1 * k.val = kk.val; rw [e1]; omega

/-- The weight block at `(q, k)` is the weight at row `512 · (t / 2 % 8) + q`, column `2048 · (t % 2) + k`. -/
theorem wblk_apply (c : Dev nD) (t : Fin cfg0.N) (q : Fin 512) (k : Fin 2048) (o kk : Fin 4096)
    (ho : o.val = t.val / 2 % 8 * 512 + q.val) (hk : kk.val = t.val % 2 * 2048 + k.val) :
    wblk m c t (ix2 q k) = warr m c (ix2 o kk) := by
  obtain ⟨-, -, e0, e1, -⟩ := idx_facts t
  show iblk m c 1 t (ix2 q k) = V m c main_v13 (ix2 o kk)
  unfold iblk
  rw [View.read_apply]
  show V m c main_v13 _ = V m c main_v13 _
  congr 1
  funext a
  apply Fin.ext
  match a with
  | ⟨0, _⟩ => show win0_1.index t (0 : Fin 2) * 512 + 1 * q.val = o.val; rw [e0]; omega
  | ⟨1, _⟩ => show win0_1.index t (1 : Fin 2) * 2048 + 1 * k.val = kk.val; rw [e1]; omega

/-- The bias block at `(0, q)` is the bias row at column `512 · (t / 2 % 8) + q`. -/
theorem bblk_apply (c : Dev nD) (t : Fin cfg0.N) (q : Fin 512) (o : Fin 4096)
    (ho : o.val = t.val / 2 % 8 * 512 + q.val) :
    bblk m c t (ix2 (0 : Fin 1) q) = barr m c (ix2 (0 : Fin 1) o) := by
  obtain ⟨-, -, -, -, e0, e1, -⟩ := idx_facts t
  show iblk m c 2 t (ix2 (0 : Fin 1) q) = V m c main_v20 (ix2 (0 : Fin 1) o)
  unfold iblk
  rw [View.read_apply]
  show V m c main_v20 _ = V m c main_v20 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = o.val; rw [e1]; omega

/-- Entry `(r, o)` of the result matrix. -/
def Gat (c : Dev nD) (r o : Fin 4096) : EReal :=
  ((0 + ∑ k : Fin 2048, xarr m c (ix2 r (lo k)) * warr m c (ix2 o (lo k)))
      + ∑ k : Fin 2048, xarr m c (ix2 r (hi k)) * warr m c (ix2 o (hi k))) + barr m c (ix2 (0 : Fin 1) o)

/-- The result matrix. -/
def G (c : Dev nD) : Vec Ideal S4096x4096 .f32 := fun i => Gat m c (i 0) (i 1)

theorem G_apply (c : Dev nD) (r o : Fin 4096) : G m c (ix2 r o) = Gat m c r o := rfl

/-- What an odd point writes back is its block of the result matrix. -/
theorem flushed_eq (c : Dev nD) (t : Fin cfg0.N) (hf : (cfg0.win 3).flush t = true) :
    (dats m 0 c).flushed 3 t = ((cfg0.win 3).blk t).view.read (Elt Ideal) (G m c) := by
  have hodd : t.val % 2 = 1 := (flush0_3 t).mp hf
  have hN : t.val < 128 := lt_of_lt_of_eq t.isLt (show cfg0.N = 128 from N_0)
  obtain ⟨-, -, -, -, -, -, e30, e31⟩ := idx_facts t
  show (cfg0.win 3).cut (grid0.coords t) ((dats m 0 c).after 3 t) = _
  rw [after0_3, out_odd m c t hodd]
  funext j
  obtain ⟨p, q, rfl⟩ : ∃ (p q : Fin 512), j = ix2 p q := ⟨j 0, j 1, eq_ix2 j⟩
  show k0_pay3 (k0_pay2 (xblk m c t) (wblk m c t) (k0_pay2 (xblk m c (prev t)) (wblk m c (prev t)) (k0_pay1 (F := Ideal)))) (bblk m c t) (ix2 p q)
    = G m c (((cfg0.win 3).blk t).view.emb (ix2 p q))
  obtain ⟨r0, hr0⟩ : ∃ r0 : Fin 4096, r0.val = t.val / 16 * 512 + p.val := ⟨⟨t.val / 16 * 512 + p.val, by omega⟩, rfl⟩
  obtain ⟨o0, ho0⟩ : ∃ o0 : Fin 4096, o0.val = t.val / 2 % 8 * 512 + q.val := ⟨⟨t.val / 2 % 8 * 512 + q.val, by omega⟩, rfl⟩
  have hemb : ((cfg0.win 3).blk t).view.emb (ix2 p q) = ix2 r0 o0 := by
    funext a
    apply Fin.ext
    match a with
    | ⟨0, _⟩ => show win0_3.index t (0 : Fin 2) * 512 + 1 * p.val = r0.val; rw [e30]; omega
    | ⟨1, _⟩ => show win0_3.index t (1 : Fin 2) * 512 + 1 * q.val = o0.val; rw [e31]; omega
  have hs1 : (∑ k : Fin 2048, xblk m c (prev t) (ix2 p k) * wblk m c (prev t) (ix2 q k))
      = ∑ k : Fin 2048, xarr m c (ix2 r0 (lo k)) * warr m c (ix2 o0 (lo k)) :=
    Finset.sum_congr rfl fun k _ => by
      rw [xblk_apply m c (prev t) p k r0 (lo k) (by show r0.val = (t.val - 1) / 16 * 512 + p.val; omega) (by show k.val = (t.val - 1) % 2 * 2048 + k.val; omega),
        wblk_apply m c (prev t) q k o0 (lo k) (by show o0.val = (t.val - 1) / 2 % 8 * 512 + q.val; omega) (by show k.val = (t.val - 1) % 2 * 2048 + k.val; omega)]
  have hs2 : (∑ k : Fin 2048, xblk m c t (ix2 p k) * wblk m c t (ix2 q k))
      = ∑ k : Fin 2048, xarr m c (ix2 r0 (hi k)) * warr m c (ix2 o0 (hi k)) :=
    Finset.sum_congr rfl fun k _ => by
      rw [xblk_apply m c t p k r0 (hi k) hr0 (by show 2048 + k.val = t.val % 2 * 2048 + k.val; omega),
        wblk_apply m c t q k o0 (hi k) ho0 (by show 2048 + k.val = t.val % 2 * 2048 + k.val; omega)]
  rw [hemb, G_apply, out_apply, acc_apply, acc_apply, zero_apply, hs1, hs2, bblk_apply m c t q o0 ho0]
  rfl

/-- An entry of the matrix lies in point `t`'s output block iff each coordinate lies in the block's range. -/
theorem mem_blk (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v22).slice (win0_3.rect t)).set ↔ _
  rw [View.set_slice_whole, Rect.mem_set_unit]
  exact Iff.rfl

/-- Every entry of the matrix is written back by the odd point of its row-block and column-block. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  refine ⟨⟨((i 0).val / 512 * 8 + (i 1).val / 512) * 2 + 1, by rw [show cfg0.N = 128 from N_0]; omega⟩, ?_, ?_⟩
  · exact (flush0_3 _).mpr (by show (((i 0).val / 512 * 8 + (i 1).val / 512) * 2 + 1) % 2 = 1; omega)
  · rw [mem_blk]
    obtain ⟨-, -, -, -, -, -, e30, e31⟩ := idx_facts ⟨((i 0).val / 512 * 8 + (i 1).val / 512) * 2 + 1, by rw [show cfg0.N = 128 from N_0]; omega⟩
    intro a
    match a with
    | ⟨0, _⟩ =>
      show win0_3.index _ (0 : Fin 2) * 512 ≤ (i 0).val ∧ (i 0).val < win0_3.index _ (0 : Fin 2) * 512 + 512
      rw [e30]; dsimp only; omega
    | ⟨1, _⟩ =>
      show win0_3.index _ (1 : Fin 2) * 512 ≤ (i 1).val ∧ (i 1).val < win0_3.index _ (1 : Fin 2) * 512 + 512
      rw [e31]; dsimp only; omega

/-- So the region leaves the result matrix in its output array. -/
theorem final (c : Dev nD) : (dats m 0 c).arrAt 3 cfg0.N = G m c :=
  (dats m 0 c).arrAt_eq_of_cover 3 (G m c) (flushed_eq m c) cover

end Cert.KernelIdeal.KVal

end
-- ==== Proof.KHost.lean ====
/-
  The host operations around the region.  Before it: the activations `x[2, 2048, 4096]` are flattened to a
  4096 x 4096 matrix (row `2048 · p + q`), the weight is dequantized, and the bias is multiplied by the activation
  scale and laid out as one row.  After it: the 4096 x 4096 result is unflattened.  Read entry by entry, the
  program's result at `(p, q, o)` is therefore the tiled form of the ternary linear layer.
-/
import proofs.«135327_j89489938580129_1_alg».proof.Proof.Spec
import proofs.«135327_j89489938580129_1_alg».proof.Proof.KBlocks
import Idealize.ShloMosaic.Lib.StableHlo.Run
import Idealize.ShloMosaic.Lib.ValueLayout

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen
open Cert.TernaryLinear
open scoped BigOperators

variable (m : (ℓ : Loc nD τ sig) → Buf (Elt Ideal) ℓ)

/-- The three argument arrays and the activation scale. -/
abbrev argX (c : Dev nD) : Vec Ideal S2x2048x4096 .f32 := m ((c : Thread nD τ).loc main_arg0)
abbrev argW (c : Dev nD) : Vec Ideal S4096x4096 .f32 := m ((c : Thread nD τ).loc main_arg1)
abbrev argB (c : Dev nD) : Vec Ideal S4096 .f32 := m ((c : Thread nD τ).loc main_arg2)
abbrev scaleX (c : Dev nD) : Vec Ideal S_ .f32 := absMean (F := Ideal) redX (argX m c)

/-- The region's first operand is the activations flattened. -/
theorem xarr_eq (c : Dev nD) :
    xarr m c = shapeCast S4096x4096 (argX m c) Gen.shapeCasts_S2x2048x4096_S4096x4096 := by
  show StableHlo.after hostOps0 (fun b => m (c, b)) (Proc.devRef .tc main_v21) = _
  after_results
  rfl

/-- Its second operand is the dequantized weight. -/
theorem warr_eq (c : Dev nD) : warr m c = deq (F := Ideal) (argW m c) := by
  show StableHlo.after hostOps0 (fun b => m (c, b)) (Proc.devRef .tc main_v13) = _
  after_results
  rfl

/-- Its third operand is the bias times the activation scale, as one row. -/
theorem barr_eq (c : Dev nD) :
    barr m c = shapeCast S1x4096 (mulf (F := Ideal) (φ := .f32) (argB m c) (broadcastInDim S4096 ![] Gen.bcast_S_S4096 (scaleX m c))) Gen.shapeCasts_S4096_S1x4096 := by
  show StableHlo.after hostOps0 (fun b => m (c, b)) (Proc.devRef .tc main_v20) = _
  after_results
  rfl

/-- Row `2048 · p + q` of the flattened activations is row `(p, q)` of the activations. -/
theorem xarr_apply (c : Dev nD) (p : Fin 2) (q : Fin 2048) (k r : Fin 4096) (hr : r.val = p.val * 2048 + q.val) :
    xarr m c (ix2 r k) = argX m c (ix3 p q k) := by
  rw [xarr_eq]
  exact shapeCast_apply _ _ (ix2 r k) (ix3 p q k) (by
    rw [Shape.rowMajor_val_three, Shape.rowMajor_val_two]
    show (p.val * 2048 + q.val) * 4096 + k.val = r.val * 4096 + k.val
    rw [hr])

/-- The bias row at column `o` is the bias at `o` times the activation scale. -/
theorem barr_apply (c : Dev nD) (o : Fin 4096) :
    barr m c (ix2 (0 : Fin 1) o) = argB m c (ix1 o) * scaleX m c ix0 := by
  rw [barr_eq, shapeCast_a_1a_apply, mulf_apply]
  refine congrArg (argB m c (ix1 o) * ·) ?_
  exact broadcastInDim_apply _ Gen.bcast_S_S4096 (scaleX m c) (ix1 o) ix0 (fun a => a.elim0)

/-- An entry of the result matrix is the tiled form at the corresponding entry of the layer. -/
theorem Gat_eq (c : Dev nD) (p : Fin 2) (q : Fin 2048) (o r : Fin 4096) (hr : r.val = p.val * 2048 + q.val) :
    Gat m c r o = tiledAt (argX m c) (deq (F := Ideal) (argW m c)) (argB m c) (scaleX m c ix0) p q o := by
  have h1 : (∑ k : Fin 2048, xarr m c (ix2 r (lo k)) * warr m c (ix2 o (lo k)))
      = ∑ k : Fin 2048, argX m c (ix3 p q (lo k)) * deq (F := Ideal) (argW m c) (ix2 o (lo k)) :=
    Finset.sum_congr rfl fun k _ => by rw [xarr_apply m c p q (lo k) r hr, warr_eq]
  have h2 : (∑ k : Fin 2048, xarr m c (ix2 r (hi k)) * warr m c (ix2 o (hi k)))
      = ∑ k : Fin 2048, argX m c (ix3 p q (hi k)) * deq (F := Ideal) (argW m c) (ix2 o (hi k)) :=
    Finset.sum_congr rfl fun k _ => by rw [xarr_apply m c p q (hi k) r hr, warr_eq]
  unfold Gat tiledAt
  rw [h1, h2, barr_apply]

/-- What the program leaves in its result: the region's output matrix, unflattened. -/
theorem tail_eq (c : Dev nD) :
    Pipeline.afterTail₀ cfgs (dats m) 0 (V0 m) [hostOps1] c main_v23
      = shapeCast S2x2048x4096 (G m c) Gen.shapeCasts_S4096x4096_S2x2048x4096 := by
  unfold Pipeline.afterTail₀
  show StableHlo.after hostOps1 _ (Proc.devRef .tc main_v23) = _
  after_results
  have hw : Pipeline.withArrays (cfgs 0).spec c (V0 m c) (fun w => (dats m 0 c).arrAt w (cfgs 0).N) (Proc.devRef .tc main_v22) = G m c :=
    (Pipeline.withArrays_arr spec0 launch0.win.arr_inj c _ _ 3).trans (final m c)
  rw [hw]
  rfl

/-- The program's result array, entry by entry: the tiled form of the layer. -/
theorem result_eq (c : Dev nD) :
    Pipeline.afterTail₀ cfgs (dats m) 0 (V0 m) [hostOps1] c main_v23
      = tiled (argX m c) (deq (F := Ideal) (argW m c)) (argB m c) (scaleX m c ix0) := by
  rw [tail_eq]
  funext i
  obtain ⟨p, q, o, rfl⟩ : ∃ (p : Fin 2) (q : Fin 2048) (o : Fin 4096), i = ix3 p q o := ⟨i 0, i 1, i 2, eq_ix3 i⟩
  rw [tiled_apply]
  obtain ⟨r, hr⟩ : ∃ r : Fin 4096, r.val = p.val * 2048 + q.val := ⟨⟨p.val * 2048 + q.val, by omega⟩, rfl⟩
  refine (shapeCast_apply (G m c) Gen.shapeCasts_S4096x4096_S2x2048x4096 (ix3 p q o) (ix2 r o) (by
    rw [Shape.rowMajor_val_three, Shape.rowMajor_val_two]
    show r.val * 4096 + o.val = (p.val * 2048 + q.val) * 4096 + o.val
    rw [hr])).trans ?_
  rw [G_apply]
  exact Gat_eq m c p q o r hr

/-- Every run of the program ends with its result at the tiled form of the layer and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v23) = tiled (argX m c) (deq (F := Ideal) (argW m c)) (argB m c) (scaleX m c ix0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.lean ====
/-
  The ternary linear layer, certified.  The reference computes `((x / s) · dᵀ + bias) · s` with `s` the clamped
  mean of `|x|` and `d` the dequantized ternary weight; the kernel computes `x · dᵀ + bias · s`, the contraction
  split into two halves accumulated in turn.  Under the precondition every entry of `x` is finite, so `s` is a
  positive real, and multiplying by a positive real distributes over sums of arbitrary extended reals: the two
  results are equal entry by entry.  No operation of the kernel is rewritten in its idealization, so `preserves` is trivial.
-/
import proofs.«135327_j89489938580129_1_alg».proof.Defs
import proofs.«135327_j89489938580129_1_alg».proof.Proof.Gen.Kernel
import proofs.«135327_j89489938580129_1_alg».proof.Proof.Gen.Kernel.Skeleton
import proofs.«135327_j89489938580129_1_alg».proof.Proof.Gen.Kernel.Launch
import proofs.«135327_j89489938580129_1_alg».proof.Proof.Gen.Kernel.Points
import proofs.«135327_j89489938580129_1_alg».proof.Proof.Gen.Kernel.Frame
import proofs.«135327_j89489938580129_1_alg».proof.Proof.Gen.KernelIdeal
import proofs.«135327_j89489938580129_1_alg».proof.Proof.Gen.KernelIdeal.Skeleton
import proofs.«135327_j89489938580129_1_alg».proof.Proof.Gen.KernelIdeal.Launch
import proofs.«135327_j89489938580129_1_alg».proof.Proof.Gen.KernelIdeal.Points
import proofs.«135327_j89489938580129_1_alg».proof.Proof.Gen.KernelIdeal.Frame
import proofs.«135327_j89489938580129_1_alg».proof.Proof.Gen.ReferenceIdeal
import proofs.«135327_j89489938580129_1_alg».proof.Proof.Gen.ReferenceIdeal.Run
import proofs.«135327_j89489938580129_1_alg».proof.Proof.Gen.ReferenceIdeal.Read
import proofs.«135327_j89489938580129_1_alg».proof.Proof.Gen.Pre_finite_inputs
import proofs.«135327_j89489938580129_1_alg».proof.Proof.Spec
import proofs.«135327_j89489938580129_1_alg».proof.Proof.Algebra
import proofs.«135327_j89489938580129_1_alg».proof.Proof.Finite
import proofs.«135327_j89489938580129_1_alg».proof.Proof.RefSide
import proofs.«135327_j89489938580129_1_alg».proof.Proof.KHost
import Idealize.ShloMosaic.Adequacy
import Idealize.ShloMosaic.Init

noncomputable section

namespace Cert.Proof

open Idealize.ShloMosaic Idealize.ShloMosaic.TcCoe Idealize.SL.Sem Idealize.ShloMosaic.ValueIdx
open Cert.TernaryLinear

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the tiled form of the layer: the kernel by its run read back, the reference because its
    plain form equals the tiled one when the activation scale is a positive real, which the precondition gives. -/
theorem algebraic : Cert.algebraic_KernelIdeal_ReferenceIdeal := by
  intro m ρ m' ρ' hpre hagree
  refine ⟨fun c => tiled (Cert.KernelIdeal.KVal.argX m c) (deq (F := Ideal) (Cert.KernelIdeal.KVal.argW m c))
      (Cert.KernelIdeal.KVal.argB m c) (Cert.KernelIdeal.KVal.scaleX m c ix0), Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v25_eq]
  funext i
  obtain ⟨p, q, o, rfl⟩ : ∃ (p : Fin 2) (q : Fin 2048) (o : Fin 4096), i = ix3 p q o := ⟨i 0, i 1, i 2, eq_ix3 i⟩
  rw [ref_apply, plainAt_eq_tiledAt _ _ _ _ (absMean_pos_of_pre _ _ _ (hpre c))]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
